-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S4096x512 .f32) (main_arg1 : FVec F S8192x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S4096x8192 : Shape := ⟨2, ![4096, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S4096x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S8192x1_0 : S8192.BroadcastsInDim S8192x1 (![0] : Fin 1 → Fin S8192x1.rank)
  shapeCasts_S8192x1_S1x8192 : S8192x1.ShapeCasts S1x8192
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x8192.size a
  hwx0_4 : ∀ i : grid0.Coords, EltTy.bits .f32 = 32 ∨ (Rect.block (s := S4096x8192) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S4096x8192, .f32⟩
  | .hbm, ⟨9, _⟩ => ⟨S4096x1, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  reducesTo_S8192x512_S8192_d1 : S8192x512.ReducesTo [1] S8192
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  dot_S4096x512_S8192x512_S4096x8192_1_1_0_0_n_n_wf : DotDims.WF S4096x512 S8192x512 S4096x8192 [1] [1] [0] [0] [] []

variable [Facts₀]

def dot_S4096x512_S8192x512_S4096x8192_1_1_0_0_n_n : DotDims S4096x512 S8192x512 S4096x8192 where
  lhsContracting := [1]
  rhsContracting := [1]
  lhsNonContracting := [0]
  rhsNonContracting := [0]
  lhsBatch := []
  rhsBatch := []
  wf := dot_S4096x512_S8192x512_S4096x8192_1_1_0_0_n_n_wf

class Facts : Prop extends Facts₀ where

variable [Facts]
-- ==== Proof.RbfSpec.lean ====
/-
  The radial-basis matrix of two families of points, as ONE function of the two argument arrays.

  The rows of `x` (4096 of them) and of `w` (8192 of them) are points of a 512-dimensional space. Both programs
  compute, for every pair `(b, n)`,
      exp (c · ((|x_b|² + |w_n|²) − d · ⟨x_b, w_n⟩)),
  the Gaussian of the squared distance written out by the polarisation identity, where `c` is the word of `-1/2` and
  `d` the word of `2`; neither word is ever evaluated, since both programs carry the same two words. A squared
  length is the host's sum: the initial value (the zero word) plus the sum of the 512 squares. The inner product is the
  sum over the shared coordinate of the products, the factor from `x` on the left.

  Nothing below needs the entries to be finite: the two programs apply the same operations of the extended reals in the
  same grouping, and differ only in how the index set `4096 × 8192` is cut into tiles and in where a narrowing of the
  format, the identity on extended reals, is applied.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rbf

open Idealize.ShloMosaic Idealize.ShloMosaic.ValueIdx

/-- The squared length of row `r` of a matrix with 512 columns, as a host sum computes it: the zero word's value plus
    the sum of the squares of the row's entries. -/
def sqLen {R : ℕ} (a : (⟨2, ![R, 512]⟩ : Shape).Idx → EReal) (r : Fin R) : EReal :=
  Ideal.ofBits .f32 0x00000000#32 + ∑ k : Fin 512, a (ix2 r k) * a (ix2 r k)

/-- The inner product of row `b` of `x` with row `n` of `w`. -/
def inner {B N : ℕ} (x : (⟨2, ![B, 512]⟩ : Shape).Idx → EReal) (w : (⟨2, ![N, 512]⟩ : Shape).Idx → EReal)
    (b : Fin B) (n : Fin N) : EReal :=
  ∑ k : Fin 512, x (ix2 b k) * w (ix2 n k)

/-- The Gaussian of the squared distance between a point of squared length `s`, a point of squared length `t`, and
    inner product `p`: `exp (c · ((s + t) − d · p))` with `c`, `d` the words of `-1/2` and `2`. -/
def gauss (s t p : EReal) : EReal :=
  Ideal.exp (Ideal.ofBits .f32 0xBF000000#32 * ((s + t) - Ideal.ofBits .f32 0x40000000#32 * p))

/-- THE RESULT: entry `(b, n)` is the Gaussian of the squared distance between row `b` of `x` and row `n` of `w`. -/
def rbf (x : (⟨2, ![4096, 512]⟩ : Shape).Idx → EReal) (w : (⟨2, ![8192, 512]⟩ : Shape).Idx → EReal) :
    (⟨2, ![4096, 8192]⟩ : Shape).Idx → EReal :=
  fun i => gauss (sqLen x (i 0)) (sqLen w (i 1)) (inner x w (i 0) (i 1))

theorem rbf_apply (x : (⟨2, ![4096, 512]⟩ : Shape).Idx → EReal) (w : (⟨2, ![8192, 512]⟩ : Shape).Idx → EReal)
    (b : Fin 4096) (n : Fin 8192) :
    rbf x w (ix2 b n) = gauss (sqLen x b) (sqLen w n) (inner x w b n) := rfl

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf

end
-- ==== Proof.RefIsRbf.lean ====
/-
  The plain program computes the radial-basis matrix.

  Read one operation at a time, the plain program's result at `(b, n)` is the host's exponential of the word of `-1/2`
  times the difference of (the two squared lengths, each the zero word plus a sum of squares, broadcast to the
  matrix and added) and the word of `2` times the `dot_general` of `x` with `w` over their second axes — the inner
  product of row `b` of `x` with row `n` of `w`. The host's exponential and the kernel's are one function of an
  extended real, so this is the Gaussian of the specification, literally.
-/
import proofs.«176478_j61229053771823_1_alg».proof.Proof.Gen.ReferenceIdeal.Read
import proofs.«176478_j61229053771823_1_alg».proof.Proof.RbfSpec

noncomputable section

namespace Cert.ReferenceIdeal.RefValue

open Cert.ReferenceIdeal Cert.ReferenceIdeal.Read Idealize.ShloMosaic Idealize.ShloMosaic.ValueIdx

/-! ## Where each stage reads its operand, for the result's entry `(b, n)` -/

theorem idx_sqx (b : Fin 4096) (n : Fin 8192) (k : Fin 512) :
    idx_main_v1 (idx_main_v5 (idx_main_v7 (ix2 b n))) k = ix2 b k :=
  funext fun a => Fin.ext (by match a with | ⟨0, _⟩ => rfl | ⟨1, _⟩ => rfl)
theorem idx_sqw (b : Fin 4096) (n : Fin 8192) (k : Fin 512) :
    idx_main_v3 (idx_main_v6 (idx_main_v8 (ix2 b n))) k = ix2 n k :=
  funext fun a => Fin.ext (by match a with | ⟨0, _⟩ => rfl | ⟨1, _⟩ => rfl)
theorem idx_dotx (b : Fin 4096) (n : Fin 8192) (k : Fin 512) : lidx_main_v4 (ix2 b n) k = ix2 b k :=
  funext fun a => Fin.ext (by match a with | ⟨0, _⟩ => rfl | ⟨1, _⟩ => rfl)
theorem idx_dotw (b : Fin 4096) (n : Fin 8192) (k : Fin 512) : ridx_main_v4 (ix2 b n) k = ix2 n k :=
  funext fun a => Fin.ext (by match a with | ⟨0, _⟩ => rfl | ⟨1, _⟩ => rfl)

/-- The plain program's last stage is the radial-basis matrix of its two arguments. -/
theorem ref_is_rbf (x : (⟨S4096x512, .f32⟩ : BufTy).Contents (Elt Ideal)) (w : (⟨S8192x512, .f32⟩ : BufTy).Contents (Elt Ideal)) :
    val_main_v15 (F := Ideal) x w = Cert.Rbf.rbf x w := by
  funext i
  obtain ⟨b, n, rfl⟩ : ∃ (b : Fin 4096) (n : Fin 8192), i = ix2 b n := ⟨i 0, i 1, eq_ix2 i⟩
  rw [val_main_v15_apply, val_main_v14_apply, val_main_v13_apply, val_main_cst_2_apply, val_main_v12_apply,
    val_main_v9_apply, val_main_v7_apply, val_main_v5_apply, val_main_v1_apply, val_main_v8_apply, val_main_v6_apply,
    val_main_v3_apply, val_main_v11_apply, val_main_v10_apply, val_main_cst_1_apply, val_main_v4_apply,
    Cert.Rbf.rbf_apply]
  simp only [val_main_v0_apply, val_main_v2_apply, val_main_cst_apply, val_main_cst_0_apply, idx_sqx, idx_sqw, idx_dotx,
    idx_dotw, Ideal.hostUnary_exp_def, Ideal.mulf_def, Ideal.subf_def, Ideal.addf_def, Ideal.ofBits_def]
  rfl

end Cert.ReferenceIdeal.RefValue

end
-- ==== Proof.TileValue.lean ====
/-
  One tile of the kernel, read at an index.

  At a grid point the body holds 1024 rows of `x` (`xb`), 1024 rows of `w` (`wb`), the squared lengths of those rows
  of `x` as a column `[1024, 1]` (`x2`) and of those rows of `w` as a row `[1, 1024]` (`w2`). It narrows `xb` and `wb`
  (the identity on extended reals), transposes `wb`, and multiplies on the matrix unit into zeros: entry `(p, q)` of
  the product is the sum over the 512 shared coordinates of `xb (p, k) · wb (q, k)`, the inner product of row `p` of
  `xb` with row `q` of `wb`. Broadcasting the column along the rows and the row along the columns and applying the
  pointwise operations gives, at `(p, q)`, the Gaussian of `x2 p`, `w2 q` and that inner product.
-/
import proofs.«176478_j61229053771823_1_alg».proof.Proof.Gen.KernelIdeal.Skeleton
import proofs.«176478_j61229053771823_1_alg».proof.Proof.RbfSpec

noncomputable section

namespace Cert.KernelIdeal.Tile

open Cert.KernelIdeal Cert.KernelIdeal.Gen Idealize.ShloMosaic Idealize.ShloMosaic.ValueIdx

/-! ## The matrix unit's index maps: the left operand is read at (row, k), the right one at (k, column) -/

theorem lhs_tile_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_tile_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_tile_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_tile_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of the narrowed tile of `x` with the transposed narrowed tile of `w`, accumulated into zeros, is at
    `(p, q)` the inner product of row `p` of the one with row `q` of the other. -/
theorem cross_apply (xb wb : FVec Ideal S1024x512 .f32) (p q : Fin 1024) :
    matmul dot_S1024x512_S512x1024_S1024x1024_1_0_0_1_n_n none (truncf .bf16 xb bitsLt_bf16_f32)
        (transpose S512x1024 [1, 0] (truncf .bf16 wb bitsLt_bf16_f32) transposes_S1024x512_p1_0_S512x1024)
        (constant S1024x1024 .f32 0x00000000#32) (ix2 p q)
      = ∑ k : Fin 512, xb (ix2 p k) * wb (ix2 q k) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_tile_0 _ _
    | ⟨1, _⟩ => exact (lhs_tile_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_tile_0 _ _).trans hk
    | ⟨1, _⟩ => exact rhs_tile_1 _ _)
  rw [el, er, transpose_ix2_apply]
  rfl

/-- The column of squared lengths, broadcast along the rows, reads at `(p, q)` its entry `p`. -/
theorem col_apply (x2 : FVec Ideal S1024x1 .f32) (p q : Fin 1024) :
    broadcastTo S1024x1024 (shapeCast S1024x1 x2 shapeCasts_S1024x1_S1024x1) broadcasts_S1024x1_S1024x1024 (ix2 p q)
      = x2 (ix2 p (0 : Fin 1)) := by
  rw [Cert.Rbf.broadcastTo_a1_ab_apply, shapeCast_self]

/-- The row of squared lengths, broadcast along the columns, reads at `(p, q)` its entry `q`. -/
theorem row_apply (w2 : FVec Ideal S1x1024 .f32) (p q : Fin 1024) :
    broadcastTo S1024x1024 (shapeCast S1x1024 w2 shapeCasts_S1x1024_S1x1024) broadcasts_S1x1024_S1024x1024 (ix2 p q)
      = w2 (ix2 (0 : Fin 1) q) := by
  rw [broadcastTo_1b_ab_apply, shapeCast_self]

/-- THE TILE: what the body stores, at `(p, q)`, is the Gaussian of the two squared lengths it was handed and the
    inner product of row `p` of its tile of `x` with row `q` of its tile of `w`. -/
theorem tile_apply (xb wb : Vec Ideal S1024x512 .f32) (x2 : Vec Ideal S1024x1 .f32) (w2 : Vec Ideal S1x1024 .f32)
    (p q : Fin 1024) :
    k0_pay1 (F := Ideal) xb wb x2 w2 (ix2 p q)
      = Cert.Rbf.gauss (x2 (ix2 p (0 : Fin 1))) (w2 (ix2 (0 : Fin 1) q)) (∑ k : Fin 512, xb (ix2 p k) * wb (ix2 q k)) :=
  congrArg Ideal.exp (congrArg (Ideal.ofBits .f32 0xBF000000#32 * ·)
    (congrArg₂ (· - ·) (congrArg₂ (· + ·) (col_apply x2 p q) (row_apply w2 p q))
      (congrArg (Ideal.ofBits .f32 0x40000000#32 * ·) (cross_apply xb wb p q))))

/-- A TILE IS A BLOCK OF THE RADIAL-BASIS MATRIX: if row `p` of the tile of `x` is row `r p` of `X`, row `q` of the tile of
    `w` is row `s q` of `W`, and the two strips of squared lengths are those of the same rows, then what the body
    stores at `(p, q)` is the matrix's entry `(r p, s q)`. -/
theorem tile_is_block (X : (⟨2, ![4096, 512]⟩ : Shape).Idx → EReal) (W : (⟨2, ![8192, 512]⟩ : Shape).Idx → EReal)
    (xb wb : Vec Ideal S1024x512 .f32) (x2 : Vec Ideal S1024x1 .f32) (w2 : Vec Ideal S1x1024 .f32)
    (r : Fin 1024 → Fin 4096) (s : Fin 1024 → Fin 8192)
    (hx : ∀ p k, xb (ix2 p k) = X (ix2 (r p) k)) (hw : ∀ q k, wb (ix2 q k) = W (ix2 (s q) k))
    (hx2 : ∀ p, x2 (ix2 p (0 : Fin 1)) = Cert.Rbf.sqLen X (r p)) (hw2 : ∀ q, w2 (ix2 (0 : Fin 1) q) = Cert.Rbf.sqLen W (s q))
    (p q : Fin 1024) :
    k0_pay1 (F := Ideal) xb wb x2 w2 (ix2 p q) = Cert.Rbf.rbf X W (ix2 (r p) (s q)) := by
  rw [tile_apply, Cert.Rbf.rbf_apply, hx2, hw2]
  unfold Cert.Rbf.inner
  simp only [hx, hw]

end Cert.KernelIdeal.Tile

end
-- ==== Proof.HostSide.lean ====
/-
  What the kernel's host prefix hands the region: the squared lengths.

  Before the region, the kernel program squares `x` entrywise and sums each row from the zero word, and keeps the 4096
  sums as a column `[4096, 1]`; it does the same with `w`, keeps the 8192 sums as a column `[8192, 1]` and re-lays
  that column as a row `[1, 8192]` (same row-major position, so entry `(0, n)` of the row is entry `(n, 0)` of the
  column). Read at an index, the column's entry `r` is the squared length of row `r` of `x` and the row's entry `n`
  the squared length of row `n` of `w`, as the specification writes them.
-/
import proofs.«176478_j61229053771823_1_alg».proof.Proof.Gen.KernelIdeal.Frame
import proofs.«176478_j61229053771823_1_alg».proof.Proof.RbfSpec
import Idealize.ShloMosaic.Lib.StableHlo.Run

noncomputable section

namespace Cert.KernelIdeal.HostSide

open Cert.KernelIdeal Cert.KernelIdeal.Gen Idealize.ShloMosaic Idealize.ShloMosaic.ValueIdx Idealize.ShloMosaic.TcCoe
open Idealize.SL.Sem Idealize.ShloMosaic.StableHlo

/-- A column `[a, 1]` re-laid as a row `[1, a]` reads, at `(0, i)`, the column at `(i, 0)`. -/
theorem shapeCast_a1_1a_apply {α : Type} {a : ℕ} (x : (⟨2, ![a, 1]⟩ : Shape).Idx → α)
    (h : (⟨2, ![a, 1]⟩ : Shape).ShapeCasts ⟨2, ![1, a]⟩) (i : Fin a) :
    shapeCast ⟨2, ![1, a]⟩ x h (ix2 (0 : Fin 1) i) = x (ix2 i (0 : Fin 1)) :=
  shapeCast_apply x h _ _ (by
    rw [Shape.rowMajor_val_two, Shape.rowMajor_val_two]
    show i.val * 1 + 0 = 0 * a + i.val
    omega)

/-- The column of row sums of the squares of `x`, at row `r`: the squared length of row `r`. -/
theorem sq_col_x (x : FVec Ideal S4096x512 .f32) (r : Fin 4096) :
    broadcastInDim S4096x1 ![0] bcast_S4096_S4096x1_0
        (Host.reduceAdd (mulf x x) (constant S_ .f32 0x00000000#32) reducesTo_S4096x512_S4096_d1 h_S_) (ix2 r (0 : Fin 1))
      = Cert.Rbf.sqLen x r := by
  rw [broadcastInDim_apply _ bcast_S4096_S4096x1_0 _ (ix2 r (0 : Fin 1)) (ix1 r) (fun a => match a with
    | ⟨0, _⟩ => by show r.val = if (4096 : Nat) = 1 then 0 else r.val; rw [if_neg (by decide)])]
  generalize hy : mulf x x = y0
  simp only [Host.reduceAdd, Ideal.hostReduceAdd_def]
  rw [Ideal.hostReduceAdd_single reducesTo_S4096x512_S4096_d1 (by decide)]
  subst hy
  unfold Cert.Rbf.sqLen
  refine congrArg (_ + ·) (Finset.sum_congr rfl fun k _ => ?_)
  exact congrArg (mulf x x) (funext fun a => Fin.ext (by match a with | ⟨0, _⟩ => rfl | ⟨1, _⟩ => rfl))

/-- The same column for `w`, re-laid as a row, at column `n`: the squared length of row `n` of `w`. -/
theorem sq_row_w (w : FVec Ideal S8192x512 .f32) (n : Fin 8192) :
    shapeCast S1x8192 (broadcastInDim S8192x1 ![0] bcast_S8192_S8192x1_0
        (Host.reduceAdd (mulf w w) (constant S_ .f32 0x00000000#32) reducesTo_S8192x512_S8192_d1 h_S_))
        shapeCasts_S8192x1_S1x8192 (ix2 (0 : Fin 1) n)
      = Cert.Rbf.sqLen w n := by
  rw [shapeCast_a1_1a_apply,
    broadcastInDim_apply _ bcast_S8192_S8192x1_0 _ (ix2 n (0 : Fin 1)) (ix1 n) (fun a => match a with
    | ⟨0, _⟩ => by show n.val = if (8192 : Nat) = 1 then 0 else n.val; rw [if_neg (by decide)])]
  generalize hy : mulf w w = y0
  simp only [Host.reduceAdd, Ideal.hostReduceAdd_def]
  rw [Ideal.hostReduceAdd_single reducesTo_S8192x512_S8192_d1 (by decide)]
  subst hy
  unfold Cert.Rbf.sqLen
  refine congrArg (_ + ·) (Finset.sum_congr rfl fun k _ => ?_)
  exact congrArg (mulf w w) (funext fun a => Fin.ext (by match a with | ⟨0, _⟩ => rfl | ⟨1, _⟩ => rfl))

variable (m : (ℓ : Loc nD τ sig) → Buf (Elt Ideal) ℓ)

/-- The region's third operand, as the region finds it, is that column for the launched `x`. -/
theorem x2_at (c : Dev nD) (r : Fin 4096) :
    (V m c main_v2 : S4096x1.Idx → EReal) (ix2 r (0 : Fin 1)) = Cert.Rbf.sqLen (m ((c : Thread nD τ).loc main_arg0)) r := by
  have e : (V m c main_v2 : S4096x1.Idx → EReal) = broadcastInDim S4096x1 ![0] bcast_S4096_S4096x1_0
      (Host.reduceAdd (mulf (m ((c : Thread nD τ).loc main_arg0)) (m ((c : Thread nD τ).loc main_arg0)))
        (constant (F := Ideal) S_ .f32 0x00000000#32) reducesTo_S4096x512_S4096_d1 h_S_) := by
    dsimp only [Gen.V, Gen.hostOps0]; after_results
  rw [e]
  exact sq_col_x _ r

/-- The region's fourth operand, as the region finds it, is that row for the launched `w`. -/
theorem w2_at (c : Dev nD) (n : Fin 8192) :
    (V m c main_v6 : S1x8192.Idx → EReal) (ix2 (0 : Fin 1) n) = Cert.Rbf.sqLen (m ((c : Thread nD τ).loc main_arg1)) n := by
  have e : (V m c main_v6 : S1x8192.Idx → EReal) = shapeCast S1x8192 (broadcastInDim S8192x1 ![0] bcast_S8192_S8192x1_0
      (Host.reduceAdd (mulf (m ((c : Thread nD τ).loc main_arg1)) (m ((c : Thread nD τ).loc main_arg1)))
        (constant (F := Ideal) S_ .f32 0x00000000#32) reducesTo_S8192x512_S8192_d1 h_S_)) shapeCasts_S8192x1_S1x8192 := by
    dsimp only [Gen.V, Gen.hostOps0]; after_results; rfl
  rw [e]
  exact sq_row_w _ n

end Cert.KernelIdeal.HostSide

end
-- ==== Proof.KernelValue.lean ====
/-
  The kernel's result array is the radial-basis matrix.

  The grid has 4 × 8 points. At point `t`, with block coordinates `(i, j)`, the region stages rows `1024 i … 1024 i + 1023`
  of `x` and of the column of its squared lengths, rows `1024 j … 1024 j + 1023` of `w`, and columns `1024 j … 1024 j + 1023`
  of the row of its squared lengths; the body's result is written back as block `(i, j)` of the `4096 × 8192` result.
  A tile being a block of the radial-basis matrix (the tile module), what point `t` writes back is block `t` of that
  matrix. Every index `(b, n)` lies in the block of the point with coordinates `(b / 1024, n / 1024)`, so the blocks
  cover the array and it ends holding the matrix.
-/
import proofs.«176478_j61229053771823_1_alg».proof.Proof.Gen.KernelIdeal.Value
import proofs.«176478_j61229053771823_1_alg».proof.Proof.TileValue
import proofs.«176478_j61229053771823_1_alg».proof.Proof.HostSide

set_option maxRecDepth 16384

noncomputable section

namespace Cert.KernelIdeal.RbfValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 points: the tile of `x` and the strip of its squared lengths move with
    the result's block ROW, the tile of `w` and the strip of its squared lengths with the result's block COLUMN, each
    on its long axis only; the result's block coordinates stay below 4 and 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 7 :=
  (by decide +kernel : ∀ t : Fin grid0.N, _)

/-- Every block of the result is some point's. -/
theorem idx_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-- The row of `x` that row `p` of point `t`'s tile holds, -/
def rowOf (t : Fin cfg0.N) (p : Fin 1024) : Fin 4096 :=
  ⟨win0_4.index t (0 : Fin 2) * 1024 + p.val, by
    have h := (idx_facts t).2.2.2.2.2.2.2.2.1; have := p.isLt; omega⟩

/-- and the row of `w` that row `q` of its tile of `w` holds. -/
def colOf (t : Fin cfg0.N) (q : Fin 1024) : Fin 8192 :=
  ⟨win0_4.index t (1 : Fin 2) * 1024 + q.val, by
    have h := (idx_facts t).2.2.2.2.2.2.2.2.2; have := q.isLt; omega⟩

/-! ## The four staged blocks at a point, read at an index -/

theorem xblk_apply (c : Dev nD) (t : Fin cfg0.N) (p : Fin 1024) (k : Fin 512) :
    (iblk m c 0 t : Vec Ideal S1024x512 .f32) (ix2 p k)
      = (m ((c : Thread nD τ).loc main_arg0) : S4096x512.Idx → EReal) (ix2 (rowOf t p) k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = win0_4.index t (0 : Fin 2) * 1024 + p.val; omega
  | ⟨1, _⟩ => show win0_0.index t (1 : Fin 2) * 512 + 1 * k.val = k.val; omega

theorem wblk_apply (c : Dev nD) (t : Fin cfg0.N) (q : Fin 1024) (k : Fin 512) :
    (iblk m c 1 t : Vec Ideal S1024x512 .f32) (ix2 q k)
      = (m ((c : Thread nD τ).loc main_arg1) : S8192x512.Idx → EReal) (ix2 (colOf t q) k) := by
  obtain ⟨-, -, e10, e11, -⟩ := idx_facts t
  show V m c main_arg1 (((cfg0.win 1).blk t).view.emb (ix2 q k)) = _
  rw [V_main_arg1]
  refine congrArg _ (funext fun a => Fin.ext ?_)
  match a with
  | ⟨0, _⟩ => show win0_1.index t (0 : Fin 2) * 1024 + 1 * q.val = win0_4.index t (1 : Fin 2) * 1024 + q.val; omega
  | ⟨1, _⟩ => show win0_1.index t (1 : Fin 2) * 512 + 1 * k.val = k.val; omega

theorem x2blk_apply (c : Dev nD) (t : Fin cfg0.N) (p : Fin 1024) :
    (iblk m c 2 t : Vec Ideal S1024x1 .f32) (ix2 p (0 : Fin 1))
      = Cert.Rbf.sqLen (m ((c : Thread nD τ).loc main_arg0)) (rowOf t p) := by
  obtain ⟨-, -, -, -, e20, e21, -⟩ := idx_facts t
  refine Eq.trans ?_ (HostSide.x2_at m c (rowOf t p))
  show (V m c main_v2 : S4096x1.Idx → EReal) (((cfg0.win 2).blk t).view.emb (ix2 p (0 : Fin 1))) = _
  refine congrArg _ (funext fun a => Fin.ext ?_)
  match a with
  | ⟨0, _⟩ => show win0_2.index t (0 : Fin 2) * 1024 + 1 * p.val = win0_4.index t (0 : Fin 2) * 1024 + p.val; omega
  | ⟨1, _⟩ => show win0_2.index t (1 : Fin 2) * 1 + 1 * 0 = 0; omega

theorem w2blk_apply (c : Dev nD) (t : Fin cfg0.N) (q : Fin 1024) :
    (iblk m c 3 t : Vec Ideal S1x1024 .f32) (ix2 (0 : Fin 1) q)
      = Cert.Rbf.sqLen (m ((c : Thread nD τ).loc main_arg1)) (colOf t q) := by
  obtain ⟨-, -, -, -, -, -, e30, e31, -⟩ := idx_facts t
  refine Eq.trans ?_ (HostSide.w2_at m c (colOf t q))
  show (V m c main_v6 : S1x8192.Idx → EReal) (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = win0_4.index t (1 : Fin 2) * 1024 + q.val; omega

/-! ## What a point writes back, and the array after the run -/

/-- WHAT POINT `t` WRITES BACK is block `t` of the radial-basis matrix of the launched arguments. -/
theorem flushed_eq (c : Dev nD) (t : Fin cfg0.N) :
    (dats m 0 c).flushed 4 t = ((cfg0.win 4).blk t).view.read (Elt Ideal)
      (Cert.Rbf.rbf (m ((c : Thread nD τ).loc main_arg0)) (m ((c : Thread nD τ).loc main_arg1))) := by
  rw [Value.flushed4]
  unfold out0_4
  rw [View.canon_unit_zero hz]
  simp only [View.ld_unit_zero (S := S1024x512) hz, View.ld_unit_zero (S := S1024x1) hz, View.ld_unit_zero (S := S1x1024) hz]
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (iblk m c 3 t) (ix2 p q)
    = Cert.Rbf.rbf (m ((c : Thread nD τ).loc main_arg0)) (m ((c : Thread nD τ).loc main_arg1)) (((cfg0.win 4).blk t).view.emb (ix2 p q))
  refine (Tile.tile_is_block (m ((c : Thread nD τ).loc main_arg0)) (m ((c : Thread nD τ).loc main_arg1))
    (iblk m c 0 t) (iblk m c 1 t) (iblk m c 2 t) (iblk m c 3 t) (rowOf t) (colOf t)
    (xblk_apply m c t) (wblk_apply m c t) (x2blk_apply m c t) (w2blk_apply m c t) p q).trans ?_
  refine congrArg _ (funext fun a => Fin.ext ?_)
  match a with
  | ⟨0, _⟩ => show win0_4.index t (0 : Fin 2) * 1024 + p.val = win0_4.index t (0 : Fin 2) * 1024 + 1 * p.val; omega
  | ⟨1, _⟩ => show win0_4.index t (1 : Fin 2) * 1024 + q.val = win0_4.index t (1 : Fin 2) * 1024 + 1 * q.val; omega

/-- An index of the result is in point `t`'s block iff each coordinate is in the block's range on its axis. -/
theorem mem_blk (t : Fin cfg0.N) (i : S4096x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- THE BLOCKS COVER THE RESULT: `(b, n)` is in the block of the point with block coordinates `(b / 1024, n / 1024)`. -/
theorem cover (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE RESULT ARRAY after the run is the radial-basis matrix of the launched arguments. -/
theorem final (c : Dev nD) : (dats m 0 c).arrAt 4 cfg0.N
    = Cert.Rbf.rbf (m ((c : Thread nD τ).loc main_arg0)) (m ((c : Thread nD τ).loc main_arg1)) :=
  (dats m 0 c).arrAt_eq_of_cover 4 _ (fun t _ => flushed_eq m c t) cover

/-- The kernel program's run: it terminates with the result at the radial-basis matrix and the arguments unchanged. -/
theorem run : θ_run defs (onTc (τ := τ) (main (F := Ideal))) ⟨m, fun _ => 0, ρ⟩ fun r => ∀ c : Dev nD,
      r.2.mem ((c : Thread nD τ).loc main_v7)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RbfValue

end
-- ==== Proof.lean ====
/-
  The Gaussian (radial-basis) matrix of the rows of `x` against the rows of `w`: a tiled kernel against the plain program.

  Both programs compute, for row `b` of `x` and row `n` of `w`,
      exp (c · ((|x_b|² + |w_n|²) − d · ⟨x_b, w_n⟩)),
  `c` and `d` the words of `-1/2` and `2`, the same two words in both. The plain program does it with whole arrays: two
  row sums of squares, one `dot_general` over the second axes, broadcasts and pointwise operations. The kernel program
  computes the two strips of squared lengths on the host, then on a 4 × 8 grid multiplies a `1024 × 512` tile of `x`
  with the transpose of a `1024 × 512` tile of `w` on the matrix unit (operands narrowed, which changes nothing over
  the extended reals) and finishes the block pointwise. Over the extended reals the two are one function of the
  arguments, entry by entry, with no appeal to finiteness: the same operations in the same grouping, the sums over the
  same index set in the same order; only the cutting into tiles differs.

  The pieces: the specification `Cert.Rbf.rbf`; the plain program's last stage is it (read one operation at a time);
  one tile of the kernel is a block of it; the kernel's blocks cover the result, so the result array is it. The three
  runs terminate with the arguments unchanged (the two kernel programs' by their launch proofs, the plain program's by
  its run read back), and no operation was rewritten when the kernel was idealized, so that conjunct is `True`.
-/
import proofs.«176478_j61229053771823_1_alg».proof.Defs
import proofs.«176478_j61229053771823_1_alg».proof.Proof.Gen.Kernel
import proofs.«176478_j61229053771823_1_alg».proof.Proof.Gen.Kernel.Skeleton
import proofs.«176478_j61229053771823_1_alg».proof.Proof.Gen.Kernel.Launch
import proofs.«176478_j61229053771823_1_alg».proof.Proof.Gen.Kernel.Points
import proofs.«176478_j61229053771823_1_alg».proof.Proof.Gen.Kernel.Frame
import proofs.«176478_j61229053771823_1_alg».proof.Proof.Gen.KernelIdeal
import proofs.«176478_j61229053771823_1_alg».proof.Proof.Gen.KernelIdeal.Skeleton
import proofs.«176478_j61229053771823_1_alg».proof.Proof.Gen.KernelIdeal.Launch
import proofs.«176478_j61229053771823_1_alg».proof.Proof.Gen.KernelIdeal.Points
import proofs.«176478_j61229053771823_1_alg».proof.Proof.Gen.KernelIdeal.Frame
import proofs.«176478_j61229053771823_1_alg».proof.Proof.Gen.ReferenceIdeal
import proofs.«176478_j61229053771823_1_alg».proof.Proof.Gen.Pre_finite_inputs
import proofs.«176478_j61229053771823_1_alg».proof.Proof.Gen.KernelIdeal.Value
import proofs.«176478_j61229053771823_1_alg».proof.Proof.Gen.ReferenceIdeal.Run
import proofs.«176478_j61229053771823_1_alg».proof.Proof.Gen.ReferenceIdeal.Read
import proofs.«176478_j61229053771823_1_alg».proof.Proof.RbfSpec
import proofs.«176478_j61229053771823_1_alg».proof.Proof.RefIsRbf
import proofs.«176478_j61229053771823_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments alone: its launch proof. -/
theorem frame_kernel : Cert.frame_Kernel := fun m ρ _ => Cert.Kernel.Gen.frame m ρ

/-- The same program read over the extended reals. -/
theorem frame_kernel_ideal : Cert.frame_KernelIdeal := fun m ρ _ => Cert.KernelIdeal.Gen.frame m ρ

/-- The plain program runs and leaves its arguments alone: its run read back, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on `x` and `w`, both programs end with the radial-basis matrix of those arguments: the
    kernel's result array by the cover of its blocks, the plain program's by its stages read at an index. -/
theorem algebraic : Cert.algebraic_KernelIdeal_ReferenceIdeal := by
  intro m ρ m' ρ' _ hagree
  refine ⟨_, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_is_rbf, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
